-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x256 : S_.BroadcastsInDim S1433x256 (![] : Fin 0 → Fin S1433x256.rank)
  reducesTo_S1433x256_S_d0_1 : S1433x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S256x7 .f32) (main_arg5 : FVec F S7 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x7 .f32 := Host.absf main_arg4
  let main_cst_6 : FVec F S_ .f32 := constant S_ .f32 0x7F800000#32
  let main_v20 : FVec F S256x7 .f32 := broadcastInDim S256x7 ![] bcast_S_S256x7 main_cst_6
  let main_v21 : IVec S256x7 1 := cmpf .olt main_v19 main_v20
  let main_c_7 : IVec S_ 1 := constantI S_ 1 1#1
  let main_v22 : IVec S_ 1 := (fun x v => Host.reduce IntOp.andi x v reducesTo_S256x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x256 .f32) (main_arg3 : FVec F S256 .f32) (main_arg4 : FVec F S256x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x256 .f32 := Host.absf main_arg2
  let main_cst_2 : FVec F S_ .f32 := constant S_ .f32 0x7F800000#32
  let main_v10 : FVec F S1433x256 .f32 := broadcastInDim S1433x256 ![] bcast_S_S1433x256 main_cst_2
  let main_v11 : IVec S1433x256 1 := cmpf .olt main_v9 main_v10
  let main_c_3 : IVec S_ 1 := constantI S_ 1 1#1
  let main_v12 : IVec S_ 1 := (fun x v => Host.reduce IntOp.andi x v reducesTo_S1433x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S_ : Shape := ⟨0, ![]⟩
abbrev S256x128 : Shape := ⟨2, ![256, 128]⟩
abbrev S1 : Shape := ⟨1, ![1]⟩
abbrev S1x128 : Shape := ⟨2, ![1, 128]⟩
abbrev S2 : Shape := ⟨1, ![2]⟩
abbrev S1x256 : Shape := ⟨2, ![1, 256]⟩
abbrev S10000x256 : Shape := ⟨2, ![10000, 256]⟩
abbrev S1000x1433 : Shape := ⟨2, ![1000, 1433]⟩
abbrev S1000x256 : Shape := ⟨2, ![1000, 256]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩
abbrev S10000x7 : Shape := ⟨2, ![10000, 7]⟩

abbrev nBuf : Space → Nat
  | .hbm => 24
  | .vmem => 18
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x256, .f32⟩
  | .hbm, ⟨3, _⟩ => ⟨S256, .f32⟩
  | .hbm, ⟨4, _⟩ => ⟨S256x7, .f32⟩
  | .hbm, ⟨5, _⟩ => ⟨S7, .f32⟩
  | .hbm, ⟨6, _⟩ => ⟨S_, .f32⟩
  | .hbm, ⟨7, _⟩ => ⟨S256x128, .f32⟩
  | .hbm, ⟨8, _⟩ => ⟨S_, .i32⟩
  | .hbm, ⟨9, _⟩ => ⟨S1, .i32⟩
  | .hbm, ⟨10, _⟩ => ⟨S256x128, .f32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S1x256, .f32⟩
  | .hbm, ⟨20, _⟩ => ⟨S10000x256, .f32⟩
  | .hbm, ⟨21, _⟩ => ⟨S10000x128, .f32⟩
  | .hbm, ⟨22, _⟩ => ⟨S10000x128, .f32⟩
  | .hbm, ⟨23, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x256, .f32⟩
  | .local _ .vmem, ⟨3, _⟩ => ⟨S1000x256, .f32⟩
  | .local _ .vmem, ⟨4, _⟩ => ⟨S1000x256, .f32⟩
  | .local _ .vmem, ⟨5, _⟩ => ⟨S400x10000, .f32⟩
  | .local _ .vmem, ⟨6, _⟩ => ⟨S400x10000, .f32⟩
  | .local _ .vmem, ⟨7, _⟩ => ⟨S10000x256, .f32⟩
  | .local _ .vmem, ⟨8, _⟩ => ⟨S1x256, .f32⟩
  | .local _ .vmem, ⟨9, _⟩ => ⟨S256x128, .f32⟩
  | .local _ .vmem, ⟨10, _⟩ => ⟨S400x128, .f32⟩
  | .local _ .vmem, ⟨11, _⟩ => ⟨S400x128, .f32⟩
  | .local _ .vmem, ⟨12, _⟩ => ⟨S400x10000, .f32⟩
  | .local _ .vmem, ⟨13, _⟩ => ⟨S400x10000, .f32⟩
  | .local _ .vmem, ⟨14, _⟩ => ⟨S10000x128, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S256x128 : S_.BroadcastsInDim S256x128 (![] : Fin 0 → Fin S256x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  shapeCasts_S256_S1x256 : S256.ShapeCasts S1x256
  inb_S1000x1433_S1000x1433_0_0 : ∀ a, (![0, 0] : Fin 2 → Nat) a + S1000x1433.size a ≤ S1000x1433.size a
  h_S1000x1433 : 0 < S1000x1433.numel
  inb_S1433x256_S1433x256_0_0 : ∀ a, (![0, 0] : Fin 2 → Nat) a + S1433x256.size a ≤ S1433x256.size a
  h_S1433x256 : 0 < S1433x256.numel
  inb_S1000x256_S1000x256_0_0 : ∀ a, (![0, 0] : Fin 2 → Nat) a + S1000x256.size a ≤ S1000x256.size a
  h_S1000x256 : 0 < S1000x256.numel
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S400x128_S400x128_0_0 : ∀ a, (![0, 0] : Fin 2 → Nat) a + S400x128.size a ≤ S400x128.size a
  h_S400x128 : 0 < S400x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  slices_S10000x128_S10000x7_0_0 : S10000x128.Slices ![0, 0] S10000x7
  scatter_S256x128_S1_S256x7_01_n_1_0_wf : ScatterDims.WF S256x128 S1 S256x7 [0, 1] [] [1] 0
  scatter_S1x128_S2_S7_0_0_01_0_wf : ScatterDims.WF S1x128 S2 S7 [0] [0] [0, 1] 0
  dot_S1000x1433_S1433x256_S1000x256_1_0_0_1_n_n_wf : DotDims.WF S1000x1433 S1433x256 S1000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x256.size a ≤ S1433x256.size a
  hwx0_1 : ∀ i : grid0.Coords, EltTy.bits .f32 = 32 ∨ (Rect.block (s := S1433x256) S1433x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def scatter_S256x128_S1_S256x7_01_n_1_0 : ScatterDims S256x128 S1 S256x7 where
  updateWindowDims := [0, 1]
  insertedWindowDims := []
  scatterDimsToOperandDims := [1]
  indexVectorDim := 0
  wf := scatter_S256x128_S1_S256x7_01_n_1_0_wf
def scatter_S1x128_S2_S7_0_0_01_0 : ScatterDims S1x128 S2 S7 where
  updateWindowDims := [0]
  insertedWindowDims := [0]
  scatterDimsToOperandDims := [0, 1]
  indexVectorDim := 0
  wf := scatter_S1x128_S2_S7_0_0_01_0_wf
def dot_S1000x1433_S1433x256_S1000x256_1_0_0_1_n_n : DotDims S1000x1433 S1433x256 S1000x256 where
  lhsContracting := [1]
  rhsContracting := [0]
  lhsNonContracting := [0]
  rhsNonContracting := [1]
  lhsBatch := []
  rhsBatch := []
  wf := dot_S1000x1433_S1433x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S10000x256 : Shape := ⟨2, ![10000, 256]⟩
abbrev S1x256 : Shape := ⟨2, ![1, 256]⟩
abbrev S_ : Shape := ⟨0, ![]⟩
abbrev S10000x7 : Shape := ⟨2, ![10000, 7]⟩
abbrev S1x7 : Shape := ⟨2, ![1, 7]⟩

abbrev nBuf : Space → Nat
  | .hbm => 19
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x256, .f32⟩
  | .hbm, ⟨3, _⟩ => ⟨S256, .f32⟩
  | .hbm, ⟨4, _⟩ => ⟨S256x7, .f32⟩
  | .hbm, ⟨5, _⟩ => ⟨S7, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  dot_S10000x1433_S1433x256_S10000x256_1_0_0_1_n_n_wf : DotDims.WF S10000x1433 S1433x256 S10000x256 [1] [0] [0] [1] [] []
  dot_S10000x10000_S10000x256_S10000x256_1_0_0_1_n_n_wf : DotDims.WF S10000x10000 S10000x256 S10000x256 [1] [0] [0] [1] [] []
  dot_S10000x256_S256x7_S10000x7_1_0_0_1_n_n_wf : DotDims.WF S10000x256 S256x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x256_S10000x256_1_0_0_1_n_n : DotDims S10000x1433 S1433x256 S10000x256 where
  lhsContracting := [1]
  rhsContracting := [0]
  lhsNonContracting := [0]
  rhsNonContracting := [1]
  lhsBatch := []
  rhsBatch := []
  wf := dot_S10000x1433_S1433x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x7_S10000x7_1_0_0_1_n_n : DotDims S10000x256 S256x7 S10000x7 where
  lhsContracting := [1]
  rhsContracting := [0]
  lhsNonContracting := [0]
  rhsNonContracting := [1]
  lhsBatch := []
  rhsBatch := []
  wf := dot_S10000x256_S256x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.Spec.lean ====
/-
  THE FUNCTION BOTH PROGRAMS COMPUTE: a two-layer graph convolution with a dense adjacency, on the extended reals.

  With `mm A B` the product of an [M, K] and a [K, N] array — entry (r, c) the sum over k of A[r, k] · B[k, c] —,
      U   = x · W1                                 [10000, 256]
      H   = max (adj · U + b1, 0)                  [10000, 256]   (b1 added to every row)
      out = adj · (H · W2) + b2                    [10000, 7]     (b2 added to every row)
  The kernel computes the same sums with the last two stages 128 lanes wide: W2 and b2 padded with zeros to 128
  columns, the biases carried as one-row arrays, and the first 7 columns of the result kept.  Column j of a product
  depends on column j of its right factor alone, so the padding never reaches a kept entry: no law of arithmetic
  is used, the sums are the same sums.  Every stage is also stated for a BLOCK OF ROWS of its left factor: rows
  ρ(0), ρ(1), … of a product are the product of those rows of the left factor with the whole right factor.
-/
import Idealize.ShloMosaic.PureOps.Ideal
import Idealize.ShloMosaic.Lib.ValueIdx

noncomputable section

open scoped BigOperators

namespace Cert.Gcn

open Idealize.ShloMosaic Idealize.ShloMosaic.ValueIdx

/-- An [a, b] array of extended reals. -/
abbrev Arr (a b : Nat) : Type := (⟨2, ![a, b]⟩ : Shape).Idx → EReal
/-- A vector of `a` extended reals. -/
abbrev Row (a : Nat) : Type := (⟨1, ![a]⟩ : Shape).Idx → EReal

/-- The product of an [M, K] array and a [K, N] array: entry (r, c) is the sum over k of A[r, k] · B[k, c]. -/
def mm {M K N : Nat} (A : Arr M K) (B : Arr K N) : Arr M N :=
  fun i => ∑ k : Fin K, A (ix2 (n0 := M) (n1 := K) (i 0) k) * B (ix2 (n0 := K) (n1 := N) k (i 1))

/-- The float zero, as the word both programs write it. -/
abbrev zero32 : EReal := Ideal.ofBits .f32 0x00000000#32

/-- A product plus a one-row array added to every row, clipped below at zero: max (A · U + b, 0). -/
def reluRow {R K C : Nat} (A : Arr R K) (U : Arr K C) (b : Arr 1 C) : Arr R C :=
  fun i => max (mm A U i + b (ix2 (n0 := 1) (n1 := C) 0 (i 1))) zero32

/-- A product plus a one-row array added to every row: A · Wd + b. -/
def affRow {R K C : Nat} (A : Arr R K) (Wd : Arr K C) (b : Arr 1 C) : Arr R C :=
  fun i => mm A Wd i + b (ix2 (n0 := 1) (n1 := C) 0 (i 1))

/-- The hidden layer from a VECTOR of biases (the reference's form): max (adj · U + b, 0). -/
def hidden (adj : Arr 10000 10000) (U : Arr 10000 256) (b : Row 256) : Arr 10000 256 :=
  fun i => max (mm adj U i + b (ix1 (n := 256) (i 1))) zero32

/-- THE RESULT: adj · (max (adj · (x · W1) + b1, 0) · W2) + b2. -/
def out (x : Arr 10000 1433) (adj : Arr 10000 10000) (W1 : Arr 1433 256) (b1 : Row 256) (W2 : Arr 256 7) (b2 : Row 7) :
    Arr 10000 7 :=
  fun i => mm adj (mm (hidden adj (mm x W1) b1) W2) i + b2 (ix1 (n := 7) (i 1))

/-! ## A product's entry reads one row of its left factor and one column of its right factor -/

/-- Two right factors that agree on a column (column `c` of the first, `c'` of the second) give products that agree
    there. -/
theorem mm_congr_col {M K N N' : Nat} (A : Arr M K) (B : Arr K N) (B' : Arr K N') (r : Fin M) (c : Fin N) (c' : Fin N')
    (h : ∀ k : Fin K, B (ix2 k c) = B' (ix2 k c')) :
    mm A B (ix2 r c) = mm A B' (ix2 r c') := by
  unfold mm
  exact Finset.sum_congr rfl fun k _ =>
    (show A (ix2 r k) * B (ix2 k c) = A (ix2 r k) * B' (ix2 k c') by rw [h k])

/-- Two left factors that agree on a row give products that agree on that row. -/
theorem mm_congr_row {M K N : Nat} (A A' : Arr M K) (B : Arr K N) (r : Fin M) (c : Fin N)
    (h : ∀ k : Fin K, A (ix2 r k) = A' (ix2 r k)) :
    mm A B (ix2 r c) = mm A' B (ix2 r c) := by
  unfold mm
  exact Finset.sum_congr rfl fun k _ =>
    (show A (ix2 r k) * B (ix2 k c) = A' (ix2 r k) * B (ix2 k c) by rw [h k])

/-- ROWS OF A PRODUCT: if `x0` holds rows ρ(0), ρ(1), … of `X` and `x1` is `W`, then `x0 · x1` holds those rows of
    `X · W`. -/
theorem mm_rows {R M K N : Nat} (X : Arr M K) (W : Arr K N) (x0 : Arr R K) (x1 : Arr K N) (ρ : Fin R → Fin M)
    (h0 : ∀ (r : Fin R) (k : Fin K), x0 (ix2 r k) = X (ix2 (ρ r) k))
    (h1 : ∀ (k : Fin K) (c : Fin N), x1 (ix2 k c) = W (ix2 k c)) (r : Fin R) (c : Fin N) :
    mm x0 x1 (ix2 r c) = mm X W (ix2 (ρ r) c) := by
  unfold mm
  exact Finset.sum_congr rfl fun k _ =>
    (show x0 (ix2 r k) * x1 (ix2 k c) = X (ix2 (ρ r) k) * W (ix2 k c) by rw [h0 r k, h1 k c])

/-- The same for the clipped affine stage. -/
theorem reluRow_rows {R M K C : Nat} (X : Arr M K) (U : Arr K C) (b : Arr 1 C) (x0 : Arr R K) (x1 : Arr K C) (x2 : Arr 1 C)
    (ρ : Fin R → Fin M) (h0 : ∀ (r : Fin R) (k : Fin K), x0 (ix2 r k) = X (ix2 (ρ r) k))
    (h1 : ∀ (k : Fin K) (c : Fin C), x1 (ix2 k c) = U (ix2 k c))
    (h2 : ∀ c : Fin C, x2 (ix2 (0 : Fin 1) c) = b (ix2 (0 : Fin 1) c)) (r : Fin R) (c : Fin C) :
    reluRow x0 x1 x2 (ix2 r c) = reluRow X U b (ix2 (ρ r) c) := by
  show max (mm x0 x1 (ix2 r c) + x2 (ix2 (0 : Fin 1) c)) zero32 = max (mm X U (ix2 (ρ r) c) + b (ix2 (0 : Fin 1) c)) zero32
  rw [mm_rows X U x0 x1 ρ h0 h1 r c, h2 c]

/-- The same for the affine stage. -/
theorem affRow_rows {R M K C : Nat} (X : Arr M K) (Wd : Arr K C) (b : Arr 1 C) (x0 : Arr R K) (x1 : Arr K C) (x2 : Arr 1 C)
    (ρ : Fin R → Fin M) (h0 : ∀ (r : Fin R) (k : Fin K), x0 (ix2 r k) = X (ix2 (ρ r) k))
    (h1 : ∀ (k : Fin K) (c : Fin C), x1 (ix2 k c) = Wd (ix2 k c))
    (h2 : ∀ c : Fin C, x2 (ix2 (0 : Fin 1) c) = b (ix2 (0 : Fin 1) c)) (r : Fin R) (c : Fin C) :
    affRow x0 x1 x2 (ix2 r c) = affRow X Wd b (ix2 (ρ r) c) := by
  show mm x0 x1 (ix2 r c) + x2 (ix2 (0 : Fin 1) c) = mm X Wd (ix2 (ρ r) c) + b (ix2 (0 : Fin 1) c)
  rw [mm_rows X Wd x0 x1 ρ h0 h1 r c, h2 c]

/-! ## The kernel's 128-lane form against the result -/

/-- A one-row array of biases that holds the vector's entries gives the same hidden layer. -/
theorem reluRow_eq_hidden (adj : Arr 10000 10000) (U : Arr 10000 256) (b1r : Arr 1 256) (b1 : Row 256)
    (hb1 : ∀ k : Fin 256, b1r (ix2 (0 : Fin 1) k) = b1 (ix1 k)) :
    reluRow adj U b1r = hidden adj U b1 := by
  funext i
  exact congrArg (fun t => max (mm adj U i + t) zero32) (hb1 (i 1))

/-- THE BRIDGE: with `W2p`, `b2p` holding `W2`, `b2` in their first 7 columns and `b1r` holding `b1`, column j < 7 of the
    kernel's 128-lane result is column j of the result. -/
theorem lanes_eq_out (x : Arr 10000 1433) (adj : Arr 10000 10000) (W1 : Arr 1433 256) (b1 : Row 256) (W2 : Arr 256 7)
    (b2 : Row 7) (b1r : Arr 1 256) (W2p : Arr 256 128) (b2p : Arr 1 128)
    (hb1 : ∀ k : Fin 256, b1r (ix2 (0 : Fin 1) k) = b1 (ix1 k))
    (hW2 : ∀ (k : Fin 256) (j : Fin 7) (j' : Fin 128), j'.val = j.val → W2p (ix2 k j') = W2 (ix2 k j))
    (hb2 : ∀ (j : Fin 7) (j' : Fin 128), j'.val = j.val → b2p (ix2 (0 : Fin 1) j') = b2 (ix1 j))
    (r : Fin 10000) (j : Fin 7) (j' : Fin 128) (hj : j'.val = j.val) :
    affRow adj (mm (reluRow adj (mm x W1) b1r) W2p) b2p (ix2 r j') = out x adj W1 b1 W2 b2 (ix2 r j) := by
  rw [reluRow_eq_hidden adj (mm x W1) b1r b1 hb1]
  show mm adj (mm (hidden adj (mm x W1) b1) W2p) (ix2 r j') + b2p (ix2 (0 : Fin 1) j')
    = mm adj (mm (hidden adj (mm x W1) b1) W2) (ix2 r j) + b2 (ix1 j)
  rw [hb2 j j' hj, mm_congr_col adj (mm (hidden adj (mm x W1) b1) W2p) (mm (hidden adj (mm x W1) b1) W2) r j' j fun n =>
    mm_congr_col (hidden adj (mm x W1) b1) W2p W2 n j' j fun k => hW2 k j j' hj]

end Cert.Gcn
-- ==== Proof.LibPlainMatmul.lean ====
/-
  A MATRIX PRODUCT INTO A ZERO ACCUMULATOR, READ AT AN INDEX.

  With the plain dimension numbers — an [M, K] left operand contracted on its second axis with the first axis of a
  [K, N] right operand, no batch axis — the product into the zero accumulator is, at (r, c) and on the extended
  reals, the sum over k of lhs[r, k] · rhs[k, c].  The operand indices are read off the dimension numbers axis
  by axis, and the sum over the one-axis contraction shape is re-indexed by its one coordinate.
-/
import proofs.«181444_g78700980732397_cont_9to1_m_426_3_alg».proof.Proof.Spec
import Idealize.ShloMosaic.PureOps.Ideal.Laws
import Idealize.ShloMosaic.Lib.ValueIdx

noncomputable section

open scoped BigOperators

namespace Cert.Gcn

open Idealize.ShloMosaic Idealize.ShloMosaic.ValueIdx

section Plain
variable (M K N : Nat)

/-- The left operand's row is the result's row. -/
theorem plain_lhs_0 (i : (⟨2, ![M, N]⟩ : Shape).Idx) (q : (DotDims.plain M K N).contr.Idx) :
    ((DotDims.plain M K N).lhsIdx i q 0).val = (i 0).val := rfl
/-- The left operand's column is the contraction position. -/
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
/-- The right operand's row is the contraction position. -/
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
/-- The right operand's column is the result's column. -/
theorem plain_rhs_1 (i : (⟨2, ![M, N]⟩ : Shape).Idx) (q : (DotDims.plain M K N).contr.Idx) :
    ((DotDims.plain M K N).rhsIdx i q 1).val = (i 1).val := rfl

/-- The product into zero at an index is the matrix product's entry. -/
theorem matmul_plain_zero_apply (A : FVec Ideal ⟨2, ![M, K]⟩ .f32) (B : FVec Ideal ⟨2, ![K, N]⟩ .f32)
    (i : (⟨2, ![M, N]⟩ : Shape).Idx) :
    FloatOps.matmul (DotDims.plain M K N) none A B (constant (F := Ideal) ⟨2, ![M, N]⟩ .f32 0x00000000#32) i = mm A B i := by
  rw [Ideal.matmul_constant_zero_apply, ← Equiv.sum_comp (contrEquiv1 (DotDims.plain M K N) K rfl rfl).symm]
  unfold mm
  refine Finset.sum_congr rfl fun k _ => ?_
  have hk := contrEquiv1_symm_val (DotDims.plain M K N) K rfl rfl k
  have el : (DotDims.plain M K N).lhsIdx i ((contrEquiv1 (DotDims.plain M K N) K rfl rfl).symm k)
      = ix2 (n0 := M) (n1 := K) (i 0) k := funext fun a => Fin.ext (by
    match a with
    | ⟨0, _⟩ => exact plain_lhs_0 M K N _ _
    | ⟨1, _⟩ => exact (plain_lhs_1 M K N _ _).trans hk)
  have er : (DotDims.plain M K N).rhsIdx i ((contrEquiv1 (DotDims.plain M K N) K rfl rfl).symm k)
      = ix2 (n0 := K) (n1 := N) k (i 1) := funext fun a => Fin.ext (by
    match a with
    | ⟨0, _⟩ => exact (plain_rhs_0 M K N _ _).trans hk
    | ⟨1, _⟩ => exact plain_rhs_1 M K N _ _)
  rw [el, er]

end Plain

end Cert.Gcn
-- ==== Proof.Bodies.lean ====
/-
  WHAT EACH KERNEL BODY STORES, as a stage of the specification applied to the blocks it loaded.

  Body 0 stores the product of its two blocks.  Body 1 stores (max (A · U + b, 0)) · W of its four blocks, the bias
  block one row broadcast over the rows.  Body 2 stores A · Wd + b of its three blocks.  Each matrix product is
  taken into a zero accumulator with the plain dimension numbers, which is the entry sum of LibPlainMatmul; the
  shape casts are casts to the same shape; a broadcast of one row reads that row; a broadcast of the scalar zero
  reads zero.
-/
import proofs.«181444_g78700980732397_cont_9to1_m_426_3_alg».proof.Proof.Gen.KernelIdeal.Skeleton
import proofs.«181444_g78700980732397_cont_9to1_m_426_3_alg».proof.Proof.LibPlainMatmul
import Idealize.ShloMosaic.Lib.Pipeline.Value
import Idealize.ShloMosaic.Lib.ValueLayout

noncomputable section

open scoped BigOperators

namespace Cert.Gcn

open Cert.KernelIdeal Cert.KernelIdeal.Gen Idealize.ShloMosaic Idealize.ShloMosaic.ValueIdx

/-- Body 0: x0 · x1. -/
theorem pay0_eq (x0 : Vec Ideal S1000x1433 .f32) (x1 : Vec Ideal S1433x256 .f32) :
    k0_pay1 (F := Ideal) x0 x1 = mm x0 x1 :=
  funext fun i => matmul_plain_zero_apply 1000 1433 256 x0 x1 i

/-- Body 1 at (r, c): row r of max (v0 · v1 + v4, 0) times column c of v10. -/
theorem pay1_apply (v0 : Vec Ideal S400x10000 .f32) (v1 : Vec Ideal S10000x256 .f32) (v4 : Vec Ideal S1x256 .f32)
    (v10 : Vec Ideal S256x128 .f32) (r : Fin 400) (c : Fin 128) :
    k1_pay1 (F := Ideal) v0 v1 v4 v10 (ix2 r c) = mm (reluRow v0 v1 v4) v10 (ix2 r c) := by
  unfold k1_pay1
  simp only [shapeCast_self]
  refine (matmul_plain_zero_apply 400 256 128 _ v10 (ix2 r c)).trans (mm_congr_row _ _ v10 r c fun k => ?_)
  show max (FloatOps.matmul (DotDims.plain 400 10000 256) none v0 v1 (constant (F := Ideal) ⟨2, ![400, 256]⟩ .f32 0x00000000#32) (ix2 r k)
      + broadcastTo ⟨2, ![400, 256]⟩ v4 broadcasts_S1x256_S400x256 (ix2 r k)) zero32
    = max (mm v0 v1 (ix2 r k) + v4 (ix2 (0 : Fin 1) k)) zero32
  rw [matmul_plain_zero_apply 400 10000 256 v0 v1 (ix2 r k), broadcastTo_1b_ab_apply v4 broadcasts_S1x256_S400x256 r k]

/-- Body 1 as one function of its blocks. -/
theorem pay1_eq (v0 : Vec Ideal S400x10000 .f32) (v1 : Vec Ideal S10000x256 .f32) (v4 : Vec Ideal S1x256 .f32)
    (v10 : Vec Ideal S256x128 .f32) :
    k1_pay1 (F := Ideal) v0 v1 v4 v10 = mm (reluRow v0 v1 v4) v10 := by
  funext i
  obtain ⟨r, c, rfl⟩ : ∃ (r : Fin 400) (c : Fin 128), i = ix2 r c := ⟨i 0, i 1, eq_ix2 i⟩
  exact pay1_apply v0 v1 v4 v10 r c

/-- Body 2 at (r, c): row r of v0 times column c of v1, plus the bias row at c. -/
theorem pay2_apply (v0 : Vec Ideal S400x10000 .f32) (v1 : Vec Ideal S10000x128 .f32) (v4 : Vec Ideal S1x128 .f32)
    (r : Fin 400) (c : Fin 128) :
    k2_pay1 (F := Ideal) v0 v1 v4 (ix2 r c) = affRow v0 v1 v4 (ix2 r c) := by
  unfold k2_pay1
  simp only [shapeCast_self]
  show FloatOps.matmul (DotDims.plain 400 10000 128) none v0 v1 (constant (F := Ideal) ⟨2, ![400, 128]⟩ .f32 0x00000000#32) (ix2 r c)
      + broadcastTo ⟨2, ![400, 128]⟩ v4 broadcasts_S1x128_S400x128 (ix2 r c)
    = mm v0 v1 (ix2 r c) + v4 (ix2 (0 : Fin 1) c)
  rw [matmul_plain_zero_apply 400 10000 128 v0 v1 (ix2 r c), broadcastTo_1b_ab_apply v4 broadcasts_S1x128_S400x128 r c]

/-- Body 2 as one function of its blocks. -/
theorem pay2_eq (v0 : Vec Ideal S400x10000 .f32) (v1 : Vec Ideal S10000x128 .f32) (v4 : Vec Ideal S1x128 .f32) :
    k2_pay1 (F := Ideal) v0 v1 v4 = affRow v0 v1 v4 := by
  funext i
  obtain ⟨r, c, rfl⟩ : ∃ (r : Fin 400) (c : Fin 128), i = ix2 r c := ⟨i 0, i 1, eq_ix2 i⟩
  exact pay2_apply v0 v1 v4 r c

end Cert.Gcn
-- ==== Proof.Region0.lean ====
/-
  REGION 0 (u = x · W1), from blocks to the array.

  The grid has 10 points; point t reads rows [1000 t, 1000 t + 1000) of x and all of W1 and writes rows
  [1000 t, 1000 t + 1000) of u.  What point t writes back is those rows of the whole product x · W1 (rows of a
  product are the product of the rows), and the ten row blocks cover u: the point covering row r is r / 1000.
  So after the region u holds x · W1, whatever the region's entry contents `V` are elsewhere.
-/
import proofs.«181444_g78700980732397_cont_9to1_m_426_3_alg».proof.Proof.Gen.KernelIdeal.Frame
import proofs.«181444_g78700980732397_cont_9to1_m_426_3_alg».proof.Proof.Bodies

set_option maxRecDepth 16384

noncomputable section

open scoped BigOperators

namespace Cert.Gcn.R0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x's and u's blocks move down with the point, W1's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of x · W1 of the arrays as the region finds them. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x256) hz]
  rw [pay0_eq (iblk0 V c 0 t) (iblk0 V c 1 t)]
  obtain ⟨e0, e1, e2, e3, e4, e5⟩ := idx_facts t
  have ht : t.val < 10 := t.isLt.trans_eq N_0
  funext j
  obtain ⟨p, q, rfl⟩ : ∃ (p : Fin 1000) (q : Fin 256), j = ix2 p q := ⟨j 0, j 1, eq_ix2 j⟩
  have hemb : ((cfg0.win 2).blk t).view.emb (ix2 p q)
      = ix2 (n0 := 10000) (n1 := 256) ⟨t.val * 1000 + p.val, by have := p.isLt; omega⟩ q := funext fun a => Fin.ext (by
    match a with
    | ⟨0, _⟩ => show win0_2.index t (0 : Fin 2) * 1000 + 1 * p.val = t.val * 1000 + p.val; omega
    | ⟨1, _⟩ => show win0_2.index t (1 : Fin 2) * 256 + 1 * q.val = q.val; omega)
  refine Eq.trans ?_ (congrArg (mm (V c main_arg0) (V c main_arg2)) hemb.symm)
  exact mm_rows (V c main_arg0) (V c main_arg2) (iblk0 V c 0 t) (iblk0 V c 1 t)
    (fun r => ⟨t.val * 1000 + r.val, by have := r.isLt; omega⟩)
    (fun r k => congrArg (V c main_arg0) (funext fun a => Fin.ext (by
      match a with
      | ⟨0, _⟩ => show win0_0.index t (0 : Fin 2) * 1000 + 1 * r.val = t.val * 1000 + r.val; omega
      | ⟨1, _⟩ => show win0_0.index t (1 : Fin 2) * 1433 + 1 * k.val = k.val; omega)))
    (fun k cc => congrArg (V c main_arg2) (funext fun a => Fin.ext (by
      match a with
      | ⟨0, _⟩ => show win0_1.index t (0 : Fin 2) * 1433 + 1 * k.val = k.val; omega
      | ⟨1, _⟩ => show win0_1.index t (1 : Fin 2) * 256 + 1 * cc.val = cc.val; omega)))
    p q

/-- An index of u is in point `t`'s block iff each coordinate is in the block's range on its axis. -/
theorem mem_blk (t : Fin cfg0.N) (i : S10000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v9).slice (win0_2.rect t)).set ↔ _
  rw [View.set_slice_whole, Rect.mem_set_unit]
  exact Iff.rfl

/-- The ten row blocks cover u: row r is in the block of point r / 1000. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ : ∃ t : Fin cfg0.N, t.val = (i 0).val / 1000 :=
    ⟨⟨(i 0).val / 1000, (show (i 0).val / 1000 < 10 by omega).trans_eq N_0.symm⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 256 ≤ (i 1).val ∧ (i 1).val < win0_2.index t (1 : Fin 2) * 256 + 256
    omega

/-- AFTER THE REGION u holds x · W1 of the arrays as the region found them. -/
theorem final (c : Dev nD) : (dat0 V c).arrAt 2 cfg0.N = mm (V c main_arg0) (V c main_arg2) :=
  (dat0 V c).arrAt_eq_of_cover 2 (mm (V c main_arg0) (V c main_arg2)) (fun t _ => flushed_eq V c t) cover

end Cert.Gcn.R0
-- ==== Proof.Region1.lean ====
/-
  REGION 1 (w = max (adj · u + b1, 0) · W2p), from blocks to the array.

  The grid has 25 points; point t reads rows [400 t, 400 t + 400) of adj and all of u, of the bias row and of the
  padded W2, and writes rows [400 t, 400 t + 400) of w.  What point t writes back is those rows of the whole
  (max (adj · u + b, 0)) · W: rows of a product are the product of the rows, twice over.  The 25 row blocks cover
  w: the point covering row r is r / 400.
-/
import proofs.«181444_g78700980732397_cont_9to1_m_426_3_alg».proof.Proof.Gen.KernelIdeal.Frame
import proofs.«181444_g78700980732397_cont_9to1_m_426_3_alg».proof.Proof.Bodies

set_option maxRecDepth 16384

noncomputable section

open scoped BigOperators

namespace Cert.Gcn.R1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: adj's and w's blocks move down with the point, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The whole function region 1 leaves in w, of the arrays as the region finds them. -/
abbrev G (c : Dev nD) : Arr 10000 128 :=
  mm (reluRow (V c main_arg1) (V c main_v9) (V c main_v8)) (V c main_v2)

/-- WHAT POINT `t` WRITES BACK is block `t` of that function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x256) hz,
    View.ld_unit_zero (S := S1x256) hz, View.ld_unit_zero (S := S256x128) hz]
  rw [pay1_eq (iblk1 V c 0 t) (iblk1 V c 1 t) (iblk1 V c 2 t) (iblk1 V c 3 t)]
  obtain ⟨e0, e1, e2, e3, e4, e5, e6, e7, e8, e9⟩ := idx_facts t
  have ht : t.val < 25 := t.isLt.trans_eq N_1
  funext j
  obtain ⟨p, q, rfl⟩ : ∃ (p : Fin 400) (q : Fin 128), j = ix2 p q := ⟨j 0, j 1, eq_ix2 j⟩
  have hemb : ((cfg1.win 4).blk t).view.emb (ix2 p q)
      = ix2 (n0 := 10000) (n1 := 128) ⟨t.val * 400 + p.val, by have := p.isLt; omega⟩ q := funext fun a => Fin.ext (by
    match a with
    | ⟨0, _⟩ => show win1_4.index t (0 : Fin 2) * 400 + 1 * p.val = t.val * 400 + p.val; omega
    | ⟨1, _⟩ => show win1_4.index t (1 : Fin 2) * 128 + 1 * q.val = q.val; omega)
  refine Eq.trans ?_ (congrArg (G V c) hemb.symm)
  exact mm_rows (reluRow (V c main_arg1) (V c main_v9) (V c main_v8)) (V c main_v2)
    (reluRow (iblk1 V c 0 t) (iblk1 V c 1 t) (iblk1 V c 2 t)) (iblk1 V c 3 t)
    (fun r => ⟨t.val * 400 + r.val, by have := r.isLt; omega⟩)
    (fun r k => reluRow_rows (V c main_arg1) (V c main_v9) (V c main_v8) (iblk1 V c 0 t) (iblk1 V c 1 t) (iblk1 V c 2 t)
      (fun r => ⟨t.val * 400 + r.val, by have := r.isLt; omega⟩)
      (fun r n => congrArg (V c main_arg1) (funext fun a => Fin.ext (by
        match a with
        | ⟨0, _⟩ => show win1_0.index t (0 : Fin 2) * 400 + 1 * r.val = t.val * 400 + r.val; omega
        | ⟨1, _⟩ => show win1_0.index t (1 : Fin 2) * 10000 + 1 * n.val = n.val; omega)))
      (fun n kk => congrArg (V c main_v9) (funext fun a => Fin.ext (by
      match a with
      | ⟨0, _⟩ => show win1_1.index t (0 : Fin 2) * 10000 + 1 * n.val = n.val; omega
      | ⟨1, _⟩ => show win1_1.index t (1 : Fin 2) * 256 + 1 * kk.val = kk.val; omega)))
      (fun kk => congrArg (V c main_v8) (funext fun a => Fin.ext (by
        match a with
        | ⟨0, _⟩ => show win1_2.index t (0 : Fin 2) * 1 + 1 * 0 = 0; omega
        | ⟨1, _⟩ => show win1_2.index t (1 : Fin 2) * 256 + 1 * kk.val = kk.val; omega)))
      r k)
    (fun kk cc => congrArg (V c main_v2) (funext fun a => Fin.ext (by
      match a with
      | ⟨0, _⟩ => show win1_3.index t (0 : Fin 2) * 256 + 1 * kk.val = kk.val; omega
      | ⟨1, _⟩ => show win1_3.index t (1 : Fin 2) * 128 + 1 * cc.val = cc.val; omega)))
    p q

/-- An index of w is in point `t`'s block iff each coordinate is in the block's range on its axis. -/
theorem mem_blk (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v10).slice (win1_4.rect t)).set ↔ _
  rw [View.set_slice_whole, Rect.mem_set_unit]
  exact Iff.rfl

/-- The 25 row blocks cover w: row r is in the block of point r / 400. -/
theorem cover (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, (show (i 0).val / 400 < 25 by omega).trans_eq N_1.symm⟩, rfl⟩
  obtain ⟨-, -, -, -, -, -, -, -, e8, e9⟩ := idx_facts t
  refine ⟨t, flush1_4 t, ?_⟩
  rw [mem_blk]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 128 ≤ (i 1).val ∧ (i 1).val < win1_4.index t (1 : Fin 2) * 128 + 128
    omega

/-- AFTER THE REGION w holds (max (adj · u + b, 0)) · W of the arrays as the region found them. -/
theorem final (c : Dev nD) : (dat1 V c).arrAt 4 cfg1.N = G V c :=
  (dat1 V c).arrAt_eq_of_cover 4 (G V c) (fun t _ => flushed_eq V c t) cover

end Cert.Gcn.R1
-- ==== Proof.Region2.lean ====
/-
  REGION 2 (o = adj · w + b2p), from blocks to the array.

  The grid has 25 points; point t reads rows [400 t, 400 t + 400) of adj and all of w and of the bias row, and
  writes rows [400 t, 400 t + 400) of o.  What point t writes back is those rows of the whole adj · w + b, and
  the 25 row blocks cover o: the point covering row r is r / 400.
-/
import proofs.«181444_g78700980732397_cont_9to1_m_426_3_alg».proof.Proof.Gen.KernelIdeal.Frame
import proofs.«181444_g78700980732397_cont_9to1_m_426_3_alg».proof.Proof.Bodies

set_option maxRecDepth 16384

noncomputable section

open scoped BigOperators

namespace Cert.Gcn.R2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: adj's and o's blocks move down with the point, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole function region 2 leaves in o, of the arrays as the region finds them. -/
abbrev G (c : Dev nD) : Arr 10000 128 := affRow (V c main_arg1) (V c main_v10) (V c main_v7)

/-- WHAT POINT `t` WRITES BACK is block `t` of that function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x128) hz,
    View.ld_unit_zero (S := S1x128) hz]
  rw [pay2_eq (iblk2 V c 0 t) (iblk2 V c 1 t) (iblk2 V c 2 t)]
  obtain ⟨e0, e1, e2, e3, e4, e5, e6, e7⟩ := idx_facts t
  have ht : t.val < 25 := t.isLt.trans_eq N_2
  funext j
  obtain ⟨p, q, rfl⟩ : ∃ (p : Fin 400) (q : Fin 128), j = ix2 p q := ⟨j 0, j 1, eq_ix2 j⟩
  have hemb : ((cfg2.win 3).blk t).view.emb (ix2 p q)
      = ix2 (n0 := 10000) (n1 := 128) ⟨t.val * 400 + p.val, by have := p.isLt; omega⟩ q := funext fun a => Fin.ext (by
    match a with
    | ⟨0, _⟩ => show win2_3.index t (0 : Fin 2) * 400 + 1 * p.val = t.val * 400 + p.val; omega
    | ⟨1, _⟩ => show win2_3.index t (1 : Fin 2) * 128 + 1 * q.val = q.val; omega)
  refine Eq.trans ?_ (congrArg (G V c) hemb.symm)
  exact affRow_rows (V c main_arg1) (V c main_v10) (V c main_v7) (iblk2 V c 0 t) (iblk2 V c 1 t) (iblk2 V c 2 t)
    (fun r => ⟨t.val * 400 + r.val, by have := r.isLt; omega⟩)
    (fun r n => congrArg (V c main_arg1) (funext fun a => Fin.ext (by
      match a with
      | ⟨0, _⟩ => show win2_0.index t (0 : Fin 2) * 400 + 1 * r.val = t.val * 400 + r.val; omega
      | ⟨1, _⟩ => show win2_0.index t (1 : Fin 2) * 10000 + 1 * n.val = n.val; omega)))
    (fun n cc => congrArg (V c main_v10) (funext fun a => Fin.ext (by
      match a with
      | ⟨0, _⟩ => show win2_1.index t (0 : Fin 2) * 10000 + 1 * n.val = n.val; omega
      | ⟨1, _⟩ => show win2_1.index t (1 : Fin 2) * 128 + 1 * cc.val = cc.val; omega)))
    (fun cc => congrArg (V c main_v7) (funext fun a => Fin.ext (by
      match a with
      | ⟨0, _⟩ => show win2_2.index t (0 : Fin 2) * 1 + 1 * 0 = 0; omega
      | ⟨1, _⟩ => show win2_2.index t (1 : Fin 2) * 128 + 1 * cc.val = cc.val; omega)))
    p q

/-- An index of o is in point `t`'s block iff each coordinate is in the block's range on its axis. -/
theorem mem_blk (t : Fin cfg2.N) (i : S10000x128.Idx) :
    i ∈ ((cfg2.win 3).blk t).view.set ↔ ∀ a : Fin 2, win2_3.index t a * S400x128.size a ≤ (i a).val
      ∧ (i a).val < win2_3.index t a * S400x128.size a + S400x128.size a := by
  show i ∈ ((View.whole main_v11).slice (win2_3.rect t)).set ↔ _
  rw [View.set_slice_whole, Rect.mem_set_unit]
  exact Iff.rfl

/-- The 25 row blocks cover o: row r is in the block of point r / 400. -/
theorem cover (i : S10000x128.Idx) :
    ∃ t : Fin cfg2.N, (cfg2.win 3).flush t = true ∧ i ∈ ((cfg2.win 3).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, (show (i 0).val / 400 < 25 by omega).trans_eq N_2.symm⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 400 ≤ (i 0).val ∧ (i 0).val < win2_3.index t (0 : Fin 2) * 400 + 400
    omega
  | ⟨1, _⟩ =>
    show win2_3.index t (1 : Fin 2) * 128 ≤ (i 1).val ∧ (i 1).val < win2_3.index t (1 : Fin 2) * 128 + 128
    omega

/-- AFTER THE REGION o holds adj · w + b of the arrays as the region found them. -/
theorem final (c : Dev nD) : (dat2 V c).arrAt 3 cfg2.N = G V c :=
  (dat2 V c).arrAt_eq_of_cover 3 (G V c) (fun t _ => flushed_eq V c t) cover

end Cert.Gcn.R2
-- ==== Proof.LibScatterSet.lean ====
/-
  A SCATTER THAT SETS, READ AT AN INDEX.

  A scatter whose body returns the update (`x.at[window].set(v)`) is a left fold over the update indices: each update
  that lands inside the operand overwrites the element it lands on.  When every update lands, at `φ j`, and `φ` is
  injective — no two updates meet —, the result holds update `j` at `φ j` and the operand's own element at every index
  no update lands on, whatever the order of the fold.  The fold is first read on an arbitrary duplicate-free list
  (`foldl_set_missed`, `foldl_set_landed`), then on the scatter's own list of all update indices.
-/
import Idealize.ShloMosaic.PureOps.ShapeOps

namespace Cert.LibScatterSet

open Idealize.ShloMosaic

/-- A fold of overwrites leaves an index alone that no step of the list writes. -/
theorem foldl_set_missed {ι κ β : Type} [DecidableEq κ] (φ : ι → κ) (v : ι → β) (l : List ι) (r : κ → β) (i : κ)
    (h : ∀ n ∈ l, φ n ≠ i) :
    (l.foldl (fun r n => fun i' => if i' = φ n then v n else r i') r) i = r i := by
  induction l generalizing r with
  | nil => rfl
  | cons a t ih =>
    rw [List.foldl_cons, ih _ (fun n hn => h n (List.mem_cons_of_mem _ hn))]
    exact if_neg (fun e => h a (List.mem_cons_self ..) e.symm)

/-- A fold of overwrites at pairwise distinct places holds, at the place step `n₀` writes, what step `n₀` wrote: the
    later steps of a duplicate-free list write elsewhere. -/
theorem foldl_set_landed {ι κ β : Type} [DecidableEq κ] (φ : ι → κ) (hφ : Function.Injective φ) (v : ι → β) (l : List ι)
    (hl : l.Nodup) (r : κ → β) (n₀ : ι) (h₀ : n₀ ∈ l) :
    (l.foldl (fun r n => fun i' => if i' = φ n then v n else r i') r) (φ n₀) = v n₀ := by
  induction l generalizing r with
  | nil => exact absurd h₀ List.not_mem_nil
  | cons a t ih =>
    rw [List.foldl_cons]
    rcases List.mem_cons.mp h₀ with e | ht
    · subst e
      rw [foldl_set_missed φ v t _ _ (fun n hn (e : φ n = φ n₀) => (List.nodup_cons.mp hl).1 (by rw [← hφ e]; exact hn))]
      exact if_pos rfl
    · exact ih (List.nodup_cons.mp hl).2 _ ht

variable {s si u : Shape} {α : Type} {w : Nat}

/-- The setting scatter as the fold of overwrites at the landing places, when every update lands (at `φ j`). -/
theorem scatter_set_eq_foldl (d : ScatterDims s si u) (x : s.Idx → α) (idx : IVec si w) (upd : u.Idx → α)
    (φ : u.Idx → s.Idx) (hres : ∀ j, d.resultIdx? j idx = some (φ j)) :
    Host.scatter d (fun _ b => b) x idx upd
      = (List.finRange u.numel).foldl
          (fun r n => fun i' => if i' = φ (u.rowMajor.symm n) then upd (u.rowMajor.symm n) else r i') x := by
  unfold Host.scatter
  refine congrArg (fun g => List.foldl g x (List.finRange u.numel)) ?_
  funext r n
  rw [hres]

/-- Where update `j` lands the setting scatter holds update `j`. -/
theorem scatter_set_landed (d : ScatterDims s si u) (x : s.Idx → α) (idx : IVec si w) (upd : u.Idx → α)
    (φ : u.Idx → s.Idx) (hres : ∀ j, d.resultIdx? j idx = some (φ j)) (hφ : Function.Injective φ) (j : u.Idx) :
    Host.scatter d (fun _ b => b) x idx upd (φ j) = upd j := by
  rw [scatter_set_eq_foldl d x idx upd φ hres]
  have h := foldl_set_landed (fun n => φ (u.rowMajor.symm n)) (hφ.comp u.rowMajor.symm.injective)
    (fun n => upd (u.rowMajor.symm n)) (List.finRange u.numel) (List.nodup_finRange _) x (u.rowMajor j) (List.mem_finRange _)
  simp only [Equiv.symm_apply_apply] at h
  exact h

/-- Where no update lands the setting scatter holds the operand's element. -/
theorem scatter_set_missed (d : ScatterDims s si u) (x : s.Idx → α) (idx : IVec si w) (upd : u.Idx → α)
    (φ : u.Idx → s.Idx) (hres : ∀ j, d.resultIdx? j idx = some (φ j)) (i : s.Idx) (h : ∀ j, φ j ≠ i) :
    Host.scatter d (fun _ b => b) x idx upd i = x i := by
  rw [scatter_set_eq_foldl d x idx upd φ hres]
  exact foldl_set_missed (fun n => φ (u.rowMajor.symm n)) (fun n => upd (u.rowMajor.symm n)) (List.finRange u.numel) x i
    (fun n _ => h _)

end Cert.LibScatterSet
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.HostGlue.lean ====
/-
  THE HOST OPERATIONS AROUND THE REGIONS, read at an index.

  Before region 0 the host builds the kernel's padded operands: W2p is a [256, 128] array of zeros with W2 set
  into its columns [0, 7); b2p is a [1, 128] row of zeros with b2 set into its columns [0, 7); b1 is recast as a
  [1, 256] row.  Each setting is a scatter with ONE start index, all of whose words are zero, so update (k, j)
  lands at (k, j) (for b2p, update j at (0, j)): every update lands, no two at one place, and at a landing place
  the result is the update.  The arguments themselves are written by no host operation.  After region 2 the host
  keeps columns [0, 7) of the 128-lane result.
-/
import proofs.«181444_g78700980732397_cont_9to1_m_426_3_alg».proof.Proof.Gen.KernelIdeal.Frame
import proofs.«181444_g78700980732397_cont_9to1_m_426_3_alg».proof.Proof.Spec
import proofs.«181444_g78700980732397_cont_9to1_m_426_3_alg».proof.Proof.LibScatterSet
import proofs.«181444_g78700980732397_cont_9to1_m_426_3_alg».proof.Proof.LibScatterGather
import Idealize.ShloMosaic.Lib.ValueLayout
import Idealize.ShloMosaic.Lib.StableHlo.Run

set_option maxRecDepth 16384

noncomputable section

namespace Cert.Gcn.Glue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The arguments at region 0's entry: no host operation writes them -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The three operands the host builds -/

/-- The bias row: b1 recast as [1, 256]. -/
theorem W1_main_v8 (c : Dev nD) : W1 m ρ c (Proc.devRef .tc main_v8)
    = shapeCast S1x256 (m ((c : Thread nD τ).loc main_arg3)) shapeCasts_S256_S1x256 := by
  show StableHlo.after hostOps0 (W0 m ρ c) (Proc.devRef .tc main_v8) = _
  dsimp only [hostOps0]
  after_results
  all_goals rfl

/-- The padded W2: zeros with W2 set in at one start index of zero words. -/
theorem W1_main_v2 (c : Dev nD) : W1 m ρ c (Proc.devRef .tc main_v2)
    = Host.scatter scatter_S256x128_S1_S256x7_01_n_1_0 (fun _ b => b)
        (broadcastInDim S256x128 ![] bcast_S_S256x128 (constant (F := Ideal) S_ .f32 0x00000000#32))
        (broadcastInDim S1 ![] bcast_S_S1 (constantI S_ 32 0#32))
        (m ((c : Thread nD τ).loc main_arg4)) := by
  show StableHlo.after hostOps0 (W0 m ρ c) (Proc.devRef .tc main_v2) = _
  dsimp only [hostOps0]
  after_results
  all_goals rfl

/-- The padded b2: a row of zeros with b2 set in at one start index of two zero words. -/
theorem W1_main_v7 (c : Dev nD) : W1 m ρ c (Proc.devRef .tc main_v7)
    = Host.scatter scatter_S1x128_S2_S7_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c : Thread nD τ).loc main_arg5)) := by
  show StableHlo.after hostOps0 (W0 m ρ c) (Proc.devRef .tc main_v7) = _
  dsimp only [hostOps0]
  after_results
  all_goals rfl

/-! ## Where the updates land -/

/-- Update (k, j) of W2 lands at (k, j) of the padded array. -/
def land2 (u : S256x7.Idx) : S256x128.Idx :=
  ix2 (n0 := 256) (n1 := 128) (u 0) ⟨(u 1).val, by have := idx2_lt1 u; omega⟩

theorem land2_injective : Function.Injective land2 := fun u u' h => funext fun a => Fin.ext (by
  match a with
  | ⟨0, _⟩ => exact congrArg (fun f : S256x128.Idx => (f 0).val) h
  | ⟨1, _⟩ => exact congrArg (fun f : S256x128.Idx => (f 1).val) h)

/-- With a start index of zero words every update of W2 lands, at its own coordinates. -/
theorem lands2 (idx : IVec S1 32) (hidx : ∀ k, idx k = 0#32) (u : S256x7.Idx) :
    scatter_S256x128_S1_S256x7_01_n_1_0.resultIdx? u idx = some (land2 u) := by
  rw [Cert.LibSG.resultIdx?_eq_some_iff]
  intro a
  match a with
  | ⟨0, _⟩ =>
    have hs : scatter_S256x128_S1_S256x7_01_n_1_0.start u idx (0 : Fin 2) = 0 := rfl
    have hw : scatter_S256x128_S1_S256x7_01_n_1_0.window u (0 : Fin 2) = (u 0).val := rfl
    show scatter_S256x128_S1_S256x7_01_n_1_0.start u idx (0 : Fin 2)
      + (scatter_S256x128_S1_S256x7_01_n_1_0.window u (0 : Fin 2) : Int) = (((u 0).val : Nat) : Int)
    rw [hs, hw]; exact Int.zero_add _
  | ⟨1, _⟩ =>
    have hs : scatter_S256x128_S1_S256x7_01_n_1_0.start u idx (1 : Fin 2)
        = (idx (scatter_S256x128_S1_S256x7_01_n_1_0.siIdx u ⟨0, by decide⟩)).toInt := rfl
    have hw : scatter_S256x128_S1_S256x7_01_n_1_0.window u (1 : Fin 2) = (u 1).val := rfl
    show scatter_S256x128_S1_S256x7_01_n_1_0.start u idx (1 : Fin 2)
      + (scatter_S256x128_S1_S256x7_01_n_1_0.window u (1 : Fin 2) : Int) = (((u 1).val : Nat) : Int)
    rw [hs, hw, hidx, show (0#32 : BitVec 32).toInt = 0 by decide]; exact Int.zero_add _

/-- Update j of b2 lands at (0, j) of the padded row. -/
def land7 (u : S7.Idx) : S1x128.Idx :=
  ix2 (n0 := 1) (n1 := 128) 0 ⟨(u 0).val, by have : (u 0).val < 7 := (u 0).isLt; omega⟩

theorem land7_injective : Function.Injective land7 := fun u u' h => funext fun a => Fin.ext (by
  match a with
  | ⟨0, _⟩ => exact congrArg (fun f : S1x128.Idx => (f 1).val) h)

/-- With a start index of two zero words every update of b2 lands, in row 0 at its own column. -/
theorem lands7 (idx : IVec S2 32) (hidx : ∀ k, idx k = 0#32) (u : S7.Idx) :
    scatter_S1x128_S2_S7_0_0_01_0.resultIdx? u idx = some (land7 u) := by
  rw [Cert.LibSG.resultIdx?_eq_some_iff]
  intro a
  match a with
  | ⟨0, _⟩ =>
    have hs : scatter_S1x128_S2_S7_0_0_01_0.start u idx (0 : Fin 2)
        = (idx (scatter_S1x128_S2_S7_0_0_01_0.siIdx u ⟨0, by decide⟩)).toInt := rfl
    have hw : scatter_S1x128_S2_S7_0_0_01_0.window u (0 : Fin 2) = 0 := rfl
    show scatter_S1x128_S2_S7_0_0_01_0.start u idx (0 : Fin 2)
      + (scatter_S1x128_S2_S7_0_0_01_0.window u (0 : Fin 2) : Int) = ((0 : Nat) : Int)
    rw [hs, hw, hidx, show (0#32 : BitVec 32).toInt = 0 by decide]; rfl
  | ⟨1, _⟩ =>
    have hs : scatter_S1x128_S2_S7_0_0_01_0.start u idx (1 : Fin 2)
        = (idx (scatter_S1x128_S2_S7_0_0_01_0.siIdx u ⟨1, by decide⟩)).toInt := rfl
    have hw : scatter_S1x128_S2_S7_0_0_01_0.window u (1 : Fin 2) = (u 0).val := rfl
    show scatter_S1x128_S2_S7_0_0_01_0.start u idx (1 : Fin 2)
      + (scatter_S1x128_S2_S7_0_0_01_0.window u (1 : Fin 2) : Int) = (((u 0).val : Nat) : Int)
    rw [hs, hw, hidx, show (0#32 : BitVec 32).toInt = 0 by decide]; exact Int.zero_add _

/-- The two-word start index the host concatenates is zero in both words. -/
theorem idx7_zero (k : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 k = 0#32 := by
  obtain ⟨k0, rfl⟩ : ∃ k0 : Fin 2, k = ix1 k0 := ⟨k 0, eq_ix1 k⟩
  fin_cases k0 <;> rfl

/-! ## The three operands at an index -/

/-- The bias row holds b1. -/
theorem b1r_apply (c : Dev nD) (k : Fin 256) :
    W1 m ρ c (Proc.devRef .tc main_v8) (ix2 (0 : Fin 1) k) = m ((c : Thread nD τ).loc main_arg3) (ix1 k) := by
  rw [W1_main_v8]
  exact shapeCast_a_1a_apply _ _ 0 k

/-- The padded W2 holds W2 in its first 7 columns. -/
theorem W2p_apply (c : Dev nD) (k : Fin 256) (j : Fin 7) (j' : Fin 128) (hj : j'.val = j.val) :
    W1 m ρ c (Proc.devRef .tc main_v2) (ix2 k j') = m ((c : Thread nD τ).loc main_arg4) (ix2 k j) := by
  rw [W1_main_v2]
  have e : land2 (ix2 k j) = ix2 (n0 := 256) (n1 := 128) k j' := funext fun a => Fin.ext (by
    match a with
    | ⟨0, _⟩ => rfl
    | ⟨1, _⟩ => exact hj.symm)
  rw [← e]
  exact Cert.LibScatterSet.scatter_set_landed _ _ _ _ land2
    (lands2 (broadcastInDim S1 ![] bcast_S_S1 (constantI S_ 32 0#32)) (fun _ => rfl)) land2_injective (ix2 k j)

/-- The padded b2 holds b2 in its first 7 columns. -/
theorem b2p_apply (c : Dev nD) (j : Fin 7) (j' : Fin 128) (hj : j'.val = j.val) :
    W1 m ρ c (Proc.devRef .tc main_v7) (ix2 (0 : Fin 1) j') = m ((c : Thread nD τ).loc main_arg5) (ix1 j) := by
  rw [W1_main_v7]
  have e : land7 (ix1 j) = ix2 (n0 := 1) (n1 := 128) 0 j' := funext fun a => Fin.ext (by
    match a with
    | ⟨0, _⟩ => rfl
    | ⟨1, _⟩ => exact hj.symm)
  rw [← e]
  exact Cert.LibScatterSet.scatter_set_landed _ _ _ _ land7
    (lands7 (concatenate S2 0 [⟨S1, broadcastInDim S1 ![] bcast_S_S1 (constantI S_ 32 0#32)⟩,
      ⟨S1, broadcastInDim S1 ![] bcast_S_S1 (constantI S_ 32 0#32)⟩] concatenates_S1_S1_S2_d0) idx7_zero) land7_injective (ix1 j)

end Cert.Gcn.Glue
-- ==== Proof.KernelValue.lean ====
/-
  THE KERNEL'S RESULT as one function of the arguments.

  The buffer contents are followed through @main's five segments.  At region 0's entry the arguments are as
  launched and the host has built the bias row and the two padded operands.  Region 0 leaves u = x · W1 and
  nothing else changed; region 1, entered there, leaves w = (max (adj · u + b1r, 0)) · W2p; region 2 leaves
  o = adj · w + b2p; the last host operation keeps columns [0, 7) of o.  Column j < 7 of o reads the padded
  operands in their first 7 columns only, where they hold W2 and b2: the result is the specification's `out`.
-/
import proofs.«181444_g78700980732397_cont_9to1_m_426_3_alg».proof.Proof.Region0
import proofs.«181444_g78700980732397_cont_9to1_m_426_3_alg».proof.Proof.Region1
import proofs.«181444_g78700980732397_cont_9to1_m_426_3_alg».proof.Proof.Region2
import proofs.«181444_g78700980732397_cont_9to1_m_426_3_alg».proof.Proof.HostGlue
import proofs.«181444_g78700980732397_cont_9to1_m_426_3_alg».proof.Proof.KernelRun

set_option maxRecDepth 16384

noncomputable section

namespace Cert.Gcn.Value

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The arguments as launched. -/
abbrev aX (c : Dev nD) : Arr 10000 1433 := m ((c : Thread nD τ).loc main_arg0)
abbrev aAdj (c : Dev nD) : Arr 10000 10000 := m ((c : Thread nD τ).loc main_arg1)
abbrev aW1 (c : Dev nD) : Arr 1433 256 := m ((c : Thread nD τ).loc main_arg2)
abbrev aB1 (c : Dev nD) : Row 256 := m ((c : Thread nD τ).loc main_arg3)
abbrev aW2 (c : Dev nD) : Arr 256 7 := m ((c : Thread nD τ).loc main_arg4)
abbrev aB2 (c : Dev nD) : Row 7 := m ((c : Thread nD τ).loc main_arg5)
/-- The operands the host builds before region 0. -/
abbrev b1r (c : Dev nD) : Arr 1 256 := W1 m ρ c (Proc.devRef .tc main_v8)
abbrev W2p (c : Dev nD) : Arr 256 128 := W1 m ρ c (Proc.devRef .tc main_v2)
abbrev b2p (c : Dev nD) : Arr 1 128 := W1 m ρ c (Proc.devRef .tc main_v7)

/-! ## Region 1's entry -/

theorem V2_main_arg1 (c : Dev nD) : V2 m ρ c main_arg1 = aAdj m c :=
  (W2_of_ne m ρ c main_arg1 (by decide)).trans (Glue.W1_main_arg1 m ρ c)
theorem V2_main_v8 (c : Dev nD) : V2 m ρ c main_v8 = b1r m ρ c := W2_of_ne m ρ c main_v8 (by decide)
theorem V2_main_v2 (c : Dev nD) : V2 m ρ c main_v2 = W2p m ρ c := W2_of_ne m ρ c main_v2 (by decide)
theorem V2_main_v7 (c : Dev nD) : V2 m ρ c main_v7 = b2p m ρ c := W2_of_ne m ρ c main_v7 (by decide)

/-- Region 0 leaves u = x · W1. -/
theorem V2_main_v9 (c : Dev nD) : V2 m ρ c main_v9 = mm (aX m c) (aW1 m c) := by
  have h : V2 m ρ c main_v9 = mm (V1 m ρ c main_arg0) (V1 m ρ c main_arg2) :=
    (W2_arr m ρ c 2).trans (R0.final (V1 m ρ) c)
  have h0 : V1 m ρ c main_arg0 = aX m c := Glue.W1_main_arg0 m ρ c
  have h2 : V1 m ρ c main_arg2 = aW1 m c := Glue.W1_main_arg2 m ρ c
  rw [h0, h2] at h
  exact h

/-! ## Region 2's entry -/

theorem V3_main_arg1 (c : Dev nD) : V3 m ρ c main_arg1 = aAdj m c :=
  (W3_arr m ρ c 0).trans (((dat1 (V2 m ρ) c).arrAt_in 0 rfl _).trans ((A_eq1 (V2 m ρ) c 0).trans (V2_main_arg1 m ρ c)))
theorem V3_main_v7 (c : Dev nD) : V3 m ρ c main_v7 = b2p m ρ c :=
  (W3_of_ne m ρ c main_v7 (by decide)).trans (V2_main_v7 m ρ c)

/-- Region 1 leaves w = (max (adj · u + b1r, 0)) · W2p. -/
theorem V3_main_v10 (c : Dev nD) :
    V3 m ρ c main_v10 = mm (reluRow (aAdj m c) (mm (aX m c) (aW1 m c)) (b1r m ρ c)) (W2p m ρ c) := by
  have h : V3 m ρ c main_v10
      = mm (reluRow (V2 m ρ c main_arg1) (V2 m ρ c main_v9) (V2 m ρ c main_v8)) (V2 m ρ c main_v2) :=
    (W3_arr m ρ c 4).trans (R1.final (V2 m ρ) c)
  rw [V2_main_arg1 m ρ c, V2_main_v9 m ρ c, V2_main_v8 m ρ c, V2_main_v2 m ρ c] at h
  exact h

/-! ## After region 2, and the slice -/

/-- Region 2 leaves o = adj · w + b2p. -/
theorem W4_main_v11 (c : Dev nD) : W4 m ρ c (Proc.devRef .tc main_v11)
    = affRow (aAdj m c) (mm (reluRow (aAdj m c) (mm (aX m c) (aW1 m c)) (b1r m ρ c)) (W2p m ρ c)) (b2p m ρ c) := by
  have h : W4 m ρ c (Proc.devRef .tc main_v11)
      = affRow (V3 m ρ c main_arg1) (V3 m ρ c main_v10) (V3 m ρ c main_v7) :=
    (W4_arr m ρ c 3).trans (R2.final (V3 m ρ) c)
  rw [V3_main_arg1 m ρ c, V3_main_v10 m ρ c, V3_main_v7 m ρ c] at h
  exact h

/-- The last host operation keeps columns [0, 7) of o. -/
theorem W5_main_v12 (c : Dev nD) : W5 m ρ c (Proc.devRef .tc main_v12)
    = extractStridedSlice S10000x7 ![0, 0] (W4 m ρ c (Proc.devRef .tc main_v11)) slices_S10000x128_S10000x7_0_0 := by
  show StableHlo.after hostOps3 (W4 m ρ c) (Proc.devRef .tc main_v12) = _
  dsimp only [hostOps3]
  after_results
  all_goals rfl

/-- THE RESULT: the last boundary's contents of the result buffer are the specification's `out` of the arguments. -/
theorem result_eq (c : Dev nD) : W5 m ρ c (Proc.devRef .tc main_v12)
    = out (aX m c) (aAdj m c) (aW1 m c) (aB1 m c) (aW2 m c) (aB2 m c) := by
  funext i
  obtain ⟨r, j, rfl⟩ : ∃ (r : Fin 10000) (j : Fin 7), i = ix2 r j := ⟨i 0, i 1, eq_ix2 i⟩
  have hj : j.val < 7 := j.isLt
  rw [W5_main_v12]
  refine (slice2_axis1_apply 0 _ slices_S10000x128_S10000x7_0_0 r j ⟨j.val, by omega⟩ (Nat.zero_add _).symm).trans ?_
  rw [W4_main_v11]
  exact lanes_eq_out (aX m c) (aAdj m c) (aW1 m c) (aB1 m c) (aW2 m c) (aB2 m c) (b1r m ρ c) (W2p m ρ c) (b2p m ρ c)
    (Glue.b1r_apply m ρ c) (Glue.W2p_apply m ρ c) (Glue.b2p_apply m ρ c) r j ⟨j.val, by omega⟩ rfl

/-- THE KERNEL'S RUN, read: it ends with the result buffer at `out` of the arguments, the arguments unchanged. -/
theorem run : θ_run defs (onTc (τ := τ) (main (F := Ideal))) ⟨m, fun _ => 0, ρ⟩ (fun r => ∀ c : Dev nD,
      r.2.mem ((c.tc : Thread nD τ).loc main_v12) = out (aX m c) (aAdj m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_named (F := Ideal) m ρ)

end Cert.Gcn.Value
-- ==== Proof.RefValue.lean ====
/-
  THE REFERENCE'S RESULT as the same function of the arguments.

  The reference's stages, read one operation at a time: a host matrix product at an index is the entry sum over the
  contracted axis, at operand indices that are (row, k) and (k, column); a bias vector broadcast first to one row
  and then over all rows reads the vector at the column; the clip is a maximum with the broadcast zero word.  So
  the stages are x · W1, adj · (x · W1), the hidden layer, its product with W2, adj times that, plus b2: `out`.
-/
import proofs.«181444_g78700980732397_cont_9to1_m_426_3_alg».proof.Defs
import proofs.«181444_g78700980732397_cont_9to1_m_426_3_alg».proof.Proof.Gen.ReferenceIdeal.Run
import proofs.«181444_g78700980732397_cont_9to1_m_426_3_alg».proof.Proof.Gen.ReferenceIdeal.Read
import proofs.«181444_g78700980732397_cont_9to1_m_426_3_alg».proof.Proof.Spec

noncomputable section

open scoped BigOperators

namespace Cert.Gcn.Ref

open Cert.ReferenceIdeal Cert.ReferenceIdeal.Gen Cert.ReferenceIdeal.Read Idealize.ShloMosaic Idealize.ShloMosaic.TcCoe
open Idealize.ShloMosaic.ValueIdx Idealize.SL.Sem

variable (x0 : Arr 10000 1433) (x1 : Arr 10000 10000) (x2 : Arr 1433 256) (x3 : Row 256) (x4 : Arr 256 7) (x5 : Row 7)

/-- x · W1. -/
theorem v0_eq : val_main_v0 (F := Ideal) x0 x2 = mm x0 x2 := by
  funext i
  rw [val_main_v0_apply]
  show _ = ∑ k : Fin 1433, x0 (ix2 (n0 := 10000) (n1 := 1433) (i 0) k) * x2 (ix2 (n0 := 1433) (n1 := 256) k (i 1))
  exact Finset.sum_congr rfl fun k _ => by
    rw [show lidx_main_v0 i k = ix2 (n0 := 10000) (n1 := 1433) (i 0) k from funext fun a => Fin.ext (by match a with | ⟨0, _⟩ => rfl | ⟨1, _⟩ => rfl),
      show ridx_main_v0 i k = ix2 (n0 := 1433) (n1 := 256) k (i 1) from funext fun a => Fin.ext (by match a with | ⟨0, _⟩ => rfl | ⟨1, _⟩ => rfl)]

/-- adj · (x · W1). -/
theorem v1_eq : val_main_v1 (F := Ideal) x0 x1 x2 = mm x1 (mm x0 x2) := by
  funext i
  rw [val_main_v1_apply, v0_eq]
  show _ = ∑ k : Fin 10000, x1 (ix2 (n0 := 10000) (n1 := 10000) (i 0) k) * mm x0 x2 (ix2 (n0 := 10000) (n1 := 256) k (i 1))
  exact Finset.sum_congr rfl fun k _ => by
    rw [show lidx_main_v1 i k = ix2 (n0 := 10000) (n1 := 10000) (i 0) k from funext fun a => Fin.ext (by match a with | ⟨0, _⟩ => rfl | ⟨1, _⟩ => rfl),
      show ridx_main_v1 i k = ix2 (n0 := 10000) (n1 := 256) k (i 1) from funext fun a => Fin.ext (by match a with | ⟨0, _⟩ => rfl | ⟨1, _⟩ => rfl)]

/-- The hidden layer: max (adj · (x · W1) + b1, 0). -/
theorem v6_eq : val_main_v6 (F := Ideal) x0 x1 x2 x3 = hidden x1 (mm x0 x2) x3 := by
  funext i
  rw [val_main_v6_apply, val_main_v4_apply, val_main_v5_apply, val_main_cst_apply, val_main_v3_apply, val_main_v2_apply,
    v1_eq]
  show max (mm x1 (mm x0 x2) i + x3 (idx_main_v2 (idx_main_v3 i))) zero32 = max (mm x1 (mm x0 x2) i + x3 (ix1 (n := 256) (i 1))) zero32
  rw [show idx_main_v2 (idx_main_v3 i) = ix1 (n := 256) (i 1) from
    funext fun a => Fin.ext (by match a with | ⟨0, _⟩ => rfl)]

/-- hidden · W2. -/
theorem v7_eq : val_main_v7 (F := Ideal) x0 x1 x2 x3 x4 = mm (hidden x1 (mm x0 x2) x3) x4 := by
  funext i
  rw [val_main_v7_apply, v6_eq]
  show _ = ∑ k : Fin 256, hidden x1 (mm x0 x2) x3 (ix2 (n0 := 10000) (n1 := 256) (i 0) k) * x4 (ix2 (n0 := 256) (n1 := 7) k (i 1))
  exact Finset.sum_congr rfl fun k _ => by
    rw [show lidx_main_v7 i k = ix2 (n0 := 10000) (n1 := 256) (i 0) k from funext fun a => Fin.ext (by match a with | ⟨0, _⟩ => rfl | ⟨1, _⟩ => rfl),
      show ridx_main_v7 i k = ix2 (n0 := 256) (n1 := 7) k (i 1) from funext fun a => Fin.ext (by match a with | ⟨0, _⟩ => rfl | ⟨1, _⟩ => rfl)]

/-- adj · (hidden · W2). -/
theorem v8_eq : val_main_v8 (F := Ideal) x0 x1 x2 x3 x4 = mm x1 (mm (hidden x1 (mm x0 x2) x3) x4) := by
  funext i
  rw [val_main_v8_apply, v7_eq]
  show _ = ∑ k : Fin 10000, x1 (ix2 (n0 := 10000) (n1 := 10000) (i 0) k)
    * mm (hidden x1 (mm x0 x2) x3) x4 (ix2 (n0 := 10000) (n1 := 7) k (i 1))
  exact Finset.sum_congr rfl fun k _ => by
    rw [show lidx_main_v8 i k = ix2 (n0 := 10000) (n1 := 10000) (i 0) k from funext fun a => Fin.ext (by match a with | ⟨0, _⟩ => rfl | ⟨1, _⟩ => rfl),
      show ridx_main_v8 i k = ix2 (n0 := 10000) (n1 := 7) k (i 1) from funext fun a => Fin.ext (by match a with | ⟨0, _⟩ => rfl | ⟨1, _⟩ => rfl)]

/-- THE REFERENCE'S LAST STAGE is the specification's `out`. -/
theorem v11_eq : val_main_v11 (F := Ideal) x0 x1 x2 x3 x4 x5 = out x0 x1 x2 x3 x4 x5 := by
  funext i
  rw [val_main_v11_apply, val_main_v10_apply, val_main_v9_apply, v8_eq]
  show mm x1 (mm (hidden x1 (mm x0 x2) x3) x4) i + x5 (idx_main_v9 (idx_main_v10 i))
    = mm x1 (mm (hidden x1 (mm x0 x2) x3) x4) i + x5 (ix1 (n := 7) (i 1))
  rw [show idx_main_v9 (idx_main_v10 i) = ix1 (n := 7) (i 1) from
    funext fun a => Fin.ext (by match a with | ⟨0, _⟩ => rfl)]

end Cert.Gcn.Ref
-- ==== Proof.lean ====
/-
  A two-layer graph convolution with a dense adjacency, three pipelined kernels against one jnp expression:

      out = adj · (max (adj · (x · W1) + b1, 0) · W2) + b2          x : [10000, 1433], adj : [10000, 10000],
                                                                    W1 : [1433, 256], W2 : [256, 7]

  The kernel computes u = x · W1 in row blocks of 1000, then w = max (adj · u + b1, 0) · W2p and o = adj · w + b2p in
  row blocks of 400, where W2p and b2p are W2 and b2 padded with zeros to 128 columns, and returns the first 7
  columns of o.  Every contraction is taken whole inside one block (only rows are blocked), so on the extended
  reals each entry of each stage is literally the reference's sum: rows of a product are the product of the rows,
  and column j < 7 of a product reads column j of its right factor, where the padded operands hold W2 and b2.
  No arithmetic law is used and the inputs' finiteness is not needed.

  The frames of the two kernel programs are the generated ones; the reference's frame is its generated run with the
  result dropped.  The ideal pass rewrote nothing, so `preserves` is trivial.  For `algebraic` the kernel's run is
  read with its result buffer named (Proof/KernelRun.lean) and followed through the three regions and the host
  operations (Proof/KernelValue.lean: `Value.run`), the reference's generated run is read stage by stage
  (Proof/RefValue.lean: `Ref.v11_eq`), and both end at the one function `Cert.Gcn.out` of the arguments.
-/
import proofs.«181444_g78700980732397_cont_9to1_m_426_3_alg».proof.Defs
import proofs.«181444_g78700980732397_cont_9to1_m_426_3_alg».proof.Proof.Gen.Kernel
import proofs.«181444_g78700980732397_cont_9to1_m_426_3_alg».proof.Proof.Gen.Kernel.Skeleton
import proofs.«181444_g78700980732397_cont_9to1_m_426_3_alg».proof.Proof.Gen.Kernel.Launch
import proofs.«181444_g78700980732397_cont_9to1_m_426_3_alg».proof.Proof.Gen.Kernel.Points
import proofs.«181444_g78700980732397_cont_9to1_m_426_3_alg».proof.Proof.Gen.Kernel.Frame
import proofs.«181444_g78700980732397_cont_9to1_m_426_3_alg».proof.Proof.Gen.KernelIdeal
import proofs.«181444_g78700980732397_cont_9to1_m_426_3_alg».proof.Proof.Gen.KernelIdeal.Skeleton
import proofs.«181444_g78700980732397_cont_9to1_m_426_3_alg».proof.Proof.Gen.KernelIdeal.Launch
import proofs.«181444_g78700980732397_cont_9to1_m_426_3_alg».proof.Proof.Gen.KernelIdeal.Points
import proofs.«181444_g78700980732397_cont_9to1_m_426_3_alg».proof.Proof.Gen.KernelIdeal.Frame
import proofs.«181444_g78700980732397_cont_9to1_m_426_3_alg».proof.Proof.Gen.ReferenceIdeal
import proofs.«181444_g78700980732397_cont_9to1_m_426_3_alg».proof.Proof.Gen.ReferenceIdeal.Run
import proofs.«181444_g78700980732397_cont_9to1_m_426_3_alg».proof.Proof.Gen.ReferenceIdeal.Read
import proofs.«181444_g78700980732397_cont_9to1_m_426_3_alg».proof.Proof.Gen.Pre_finite_inputs
import proofs.«181444_g78700980732397_cont_9to1_m_426_3_alg».proof.Proof.KernelValue
import proofs.«181444_g78700980732397_cont_9to1_m_426_3_alg».proof.Proof.RefValue
import Idealize.ShloMosaic.Adequacy
import Idealize.ShloMosaic.Init

noncomputable section

namespace Cert.Proof

open Idealize.ShloMosaic Idealize.SL.Sem

/-- The reference runs and leaves its arguments alone: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the arguments both programs end with `Cert.Gcn.out` of the arguments in their result
    buffers. -/
theorem algebraic : Cert.algebraic_KernelIdeal_ReferenceIdeal := by
  intro m ρ m' ρ' _ hagree
  refine ⟨_, Cert.Gcn.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Gcn.Ref.v11_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
